-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x512x512 : Shape := ⟨3, ![64, 512, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_

variable [Facts]

def fn {F : FTy → Type} [FloatOps F] (main_arg0 : FVec F S64x2048x512 .f32) (main_arg1 : FVec F S64x512x512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  main_v8
-- ==== Kernel.lean ====
abbrev S64x2048x512 : Shape := ⟨3, ![64, 2048, 512]⟩
abbrev S64x512x512 : Shape := ⟨3, ![64, 512, 512]⟩
abbrev S64x1x128 : Shape := ⟨3, ![64, 1, 128]⟩
abbrev S1x2048x512 : Shape := ⟨3, ![1, 2048, 512]⟩
abbrev S1x512x512 : Shape := ⟨3, ![1, 512, 512]⟩
abbrev S1x1x128 : Shape := ⟨3, ![1, 1, 128]⟩
abbrev S2048x512 : Shape := ⟨2, ![2048, 512]⟩
abbrev S512x512 : Shape := ⟨2, ![512, 512]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩

abbrev nBuf : Space → Nat
  | .hbm => 5
  | .vmem => 6
  | .smem => 0
  | _ => 0

abbrev bufTy : (tb : Table) → Fin (tcTables nBuf tb) → BufTy
  | .hbm, ⟨0, _⟩ => ⟨S64x2048x512, .f32⟩
  | .hbm, ⟨1, _⟩ => ⟨S64x512x512, .f32⟩
  | .hbm, ⟨2, _⟩ => ⟨S64x1x128, .f32⟩
  | .hbm, ⟨3, _⟩ => ⟨S64x1x1, .f32⟩
  | .hbm, ⟨4, _⟩ => ⟨S64, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x128, .f32⟩
  | .local _ .vmem, ⟨5, _⟩ => ⟨S1x1x128, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S2048x512_S2048 : S2048x512.Reduces [1] S2048
  shapeCasts_S2048_S2048x1 : S2048.ShapeCasts S2048x1
  reduces_S512x512_S512 : S512x512.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S2048x1_S2048x512 : S2048x1.Broadcasts S2048x512
  broadcasts_S1x512_S2048x512 : S1x512.Broadcasts S2048x512
  reduces_S2048x1_S1 : S2048x1.Reduces [0] S1
  shapeCasts_S1_S1x1 : S1.ShapeCasts S1x1
  reduces_S2048x512_S512 : S2048x512.Reduces [0] S512
  shapeCasts_S512_S1x512 : S512.ShapeCasts S1x512
  reduces_S1x512_S1 : S1x512.Reduces [1] S1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S64x1x128_S64x1x1_0_0_0 : S64x1x128.Slices ![0, 0, 0] S64x1x1
  shapeCasts_S64x1x1_S64 : S64x1x1.ShapeCasts S64
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x512x512 : Shape := ⟨3, ![64, 512, 512]⟩
abbrev S_ : Shape := ⟨0, ![]⟩
abbrev S64x2048 : Shape := ⟨2, ![64, 2048]⟩
abbrev S64x2048x1 : Shape := ⟨3, ![64, 2048, 1]⟩
abbrev S64x512 : Shape := ⟨2, ![64, 512]⟩
abbrev S64x512x1 : Shape := ⟨3, ![64, 512, 1]⟩
abbrev S64x1x512 : Shape := ⟨3, ![64, 1, 512]⟩
abbrev S64 : Shape := ⟨1, ![64]⟩

abbrev nBuf : Space → Nat
  | .hbm => 34
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x512x512, .f32⟩
  | .hbm, ⟨2, _⟩ => ⟨S64x2048x512, .f32⟩
  | .hbm, ⟨3, _⟩ => ⟨S_, .f32⟩
  | .hbm, ⟨4, _⟩ => ⟨S64x2048, .f32⟩
  | .hbm, ⟨5, _⟩ => ⟨S64x2048x1, .f32⟩
  | .hbm, ⟨6, _⟩ => ⟨S64x512x512, .f32⟩
  | .hbm, ⟨7, _⟩ => ⟨S_, .f32⟩
  | .hbm, ⟨8, _⟩ => ⟨S64x512, .f32⟩
  | .hbm, ⟨9, _⟩ => ⟨S64x512x1, .f32⟩
  | .hbm, ⟨10, _⟩ => ⟨S64x2048x512, .f32⟩
  | .hbm, ⟨11, _⟩ => ⟨S_, .f32⟩
  | .hbm, ⟨12, _⟩ => ⟨S64x2048x512, .f32⟩
  | .hbm, ⟨13, _⟩ => ⟨S64x2048x512, .f32⟩
  | .hbm, ⟨14, _⟩ => ⟨S64x2048x512, .f32⟩
  | .hbm, ⟨15, _⟩ => ⟨S64x2048x512, .f32⟩
  | .hbm, ⟨16, _⟩ => ⟨S64x1x512, .f32⟩
  | .hbm, ⟨17, _⟩ => ⟨S64x2048x512, .f32⟩
  | .hbm, ⟨18, _⟩ => ⟨S64x2048x512, .f32⟩
  | .hbm, ⟨19, _⟩ => ⟨S_, .f32⟩
  | .hbm, ⟨20, _⟩ => ⟨S64x2048, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64x512, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x2048x512_S64x2048_d2 : S64x2048x512.ReducesTo [2] S64x2048
  h_S_ : 0 < S_.numel
  bcast_S64x2048_S64x2048x1_0_1 : S64x2048.BroadcastsInDim S64x2048x1 (![0, 1] : Fin 2 → Fin S64x2048x1.rank)
  reducesTo_S64x512x512_S64x512_d2 : S64x512x512.ReducesTo [2] S64x512
  bcast_S64x512_S64x512x1_0_1 : S64x512.BroadcastsInDim S64x512x1 (![0, 1] : Fin 2 → Fin S64x512x1.rank)
  bcast_S_S64x2048x512 : S_.BroadcastsInDim S64x2048x512 (![] : Fin 0 → Fin S64x2048x512.rank)
  bcast_S64x2048x1_S64x2048x512_0_1_2 : S64x2048x1.BroadcastsInDim S64x2048x512 (![0, 1, 2] : Fin 3 → Fin S64x2048x512.rank)
  transposes_S64x512x1_S64x1x512_0_2_1 : S64x512x1.Transposes [0, 2, 1] S64x1x512
  bcast_S64x1x512_S64x2048x512_0_1_2 : S64x1x512.BroadcastsInDim S64x2048x512 (![0, 1, 2] : Fin 3 → Fin S64x2048x512.rank)
  reducesTo_S64x2048_S64_d1 : S64x2048.ReducesTo [1] S64
  bcast_S_S64 : S_.BroadcastsInDim S64 (![] : Fin 0 → Fin S64.rank)
  reducesTo_S64x2048x512_S64x512_d1 : S64x2048x512.ReducesTo [1] S64x512
  reducesTo_S64x512_S64_d1 : S64x512.ReducesTo [1] S64
  dot_S64x2048x512_S64x512x512_S64x2048x512_2_2_1_1_0_0_wf : DotDims.WF S64x2048x512 S64x512x512 S64x2048x512 [2] [2] [1] [1] [0] [0]

variable [Facts₀]

def dot_S64x2048x512_S64x512x512_S64x2048x512_2_2_1_1_0_0 : DotDims S64x2048x512 S64x512x512 S64x2048x512 where
  lhsContracting := [2]
  rhsContracting := [2]
  lhsNonContracting := [1]
  rhsNonContracting := [1]
  lhsBatch := [0]
  rhsBatch := [0]
  wf := dot_S64x2048x512_S64x512x512_S64x2048x512_2_2_1_1_0_0_wf

class Facts : Prop extends Facts₀ where

variable [Facts]
-- ==== Proof.Spec.lean ====
/-
  The function both programs compute, over the extended reals.

  For one batch entry the inputs are a matrix `A` of 2048 rows and a matrix `B` of 512 rows, both with 512
  columns. With `|A v|²` the sum of the squares of row `v`, and `A v · B l` the inner product of two rows, the
  pairwise term is
      pair v l = (|A v|² − 2 · (A v · B l)) + |B l|²,
  and the result is the mean over `v` of the least pairwise term of row `v`, plus the mean over `l` of the least
  pairwise term of column `l`:
      dist A B = (∑ v, min over l of pair v l) / 2048 + (∑ l, min over v of pair v l) / 512.
  A least term is a fold of `min` from +∞; the divisors and the factor 2 are kept as the f32 words the programs print,
  the same words on both sides, so none of them is ever evaluated.

  `result x0 x1` is this at every batch entry of the argument arrays `x0 : [64, 2048, 512]` and `x1 : [64, 512, 512]`.
-/
import Idealize.ShloMosaic.PureOps.Ideal.Laws
import Idealize.ShloMosaic.Lib.ValueIdx

noncomputable section

namespace Cert.Chamfer

open Idealize.ShloMosaic Idealize.ShloMosaic.ValueIdx
open scoped BigOperators

/-- The sum of the squares of row `r`. -/
def sqn {R : Nat} (X : Fin R → Fin 512 → EReal) (r : Fin R) : EReal := ∑ k : Fin 512, X r k * X r k

/-- The inner product of row `v` of `A` with row `l` of `B`. -/
def cross (A : Fin 2048 → Fin 512 → EReal) (B : Fin 512 → Fin 512 → EReal) (v : Fin 2048) (l : Fin 512) : EReal :=
  ∑ k : Fin 512, A v k * B l k

/-- The pairwise term: `(|A v|² − 2 · (A v · B l)) + |B l|²`, grouped as both programs group it. -/
def pair (A : Fin 2048 → Fin 512 → EReal) (B : Fin 512 → Fin 512 → EReal) (v : Fin 2048) (l : Fin 512) : EReal :=
  sqn A v - Ideal.ofBits .f32 0x40000000#32 * cross A B v l + sqn B l

/-- The least pairwise term of row `v`: a fold of `min` from +∞ over the columns. -/
def rowMin (A : Fin 2048 → Fin 512 → EReal) (B : Fin 512 → Fin 512 → EReal) (v : Fin 2048) : EReal :=
  (Finset.univ : Finset (Fin 512)).fold min (Ideal.ofBits .f32 0x7F800000#32) (fun l => pair A B v l)

/-- The least pairwise term of column `l`: a fold of `min` from +∞ over the rows. -/
def colMin (A : Fin 2048 → Fin 512 → EReal) (B : Fin 512 → Fin 512 → EReal) (l : Fin 512) : EReal :=
  (Finset.univ : Finset (Fin 2048)).fold min (Ideal.ofBits .f32 0x7F800000#32) (fun v => pair A B v l)

/-- The mean of the row minima plus the mean of the column minima. -/
def dist (A : Fin 2048 → Fin 512 → EReal) (B : Fin 512 → Fin 512 → EReal) : EReal :=
  Ideal.div (∑ v : Fin 2048, rowMin A B v) (Ideal.ofBits .f32 0x45000000#32)
    + Ideal.div (∑ l : Fin 512, colMin A B l) (Ideal.ofBits .f32 0x44000000#32)

/-- Batch entry `b` of a rank-3 array, as a matrix. -/
def slab {R : Nat} (x : (⟨3, ![64, R, 512]⟩ : Shape).Idx → EReal) (b : Fin 64) : Fin R → Fin 512 → EReal :=
  fun r k => x (ix3 b r k)

/-- The result array: `dist` of each batch entry's two matrices. -/
def result (x0 : (⟨3, ![64, 2048, 512]⟩ : Shape).Idx → EReal) (x1 : (⟨3, ![64, 512, 512]⟩ : Shape).Idx → EReal) :
    (⟨1, ![64]⟩ : Shape).Idx → EReal :=
  fun i => dist (slab x0 (i 0)) (slab x1 (i 0))

end Cert.Chamfer

end
-- ==== Proof.LibReduceMinMax.lean ====
/-
  General lemmas on one-axis minimum and maximum reductions at the ideal values (the extended reals).

  * A kernel's `vector.multi_reduction <minimumf>` over ONE axis, read at a result index `j`, is the fold of `min` from the
    accumulator's value over that axis's coordinates (`Shape.Reduces.lift`: `j` with the coordinate inserted) — the twin of
    the library's `Ideal.multiReduction_maximumf_single`.
  * The host's one-operand `stablehlo.reduce` with a `minimum` / `maximum` body over one axis is the same fold from the
    initial value's element, spelt with `min` / `max`.
  * The two starting words: the f32 pattern of +∞ is the top of the extended reals and that of −∞ its bottom, so a fold of
    `min` from the first (of `max` from the second) over a finite set is the set's infimum (supremum).
-/
import Idealize.ShloMosaic.PureOps.Ideal.Laws

namespace Cert.Lib

open Idealize.ShloMosaic

variable {φ : FTy}

/-- A float `vector.multi_reduction <minimumf>` over one axis, read at `Ideal`: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's `stablehlo.reduce` with a `minimum` body over one axis, read at `Ideal`. -/
theorem hostReduce_minimumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- The host's `stablehlo.reduce` with a `maximum` body over one axis, read at `Ideal`. -/
theorem hostReduce_maximumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

end Cert.Lib
-- ==== Proof.RefSide.lean ====
/-
  The reference's result, stage by stage, is the specification's `result`.

  Each stage of the reference is read at explicit coordinates. Row `(b, v)` of the first sum is the squared norm of
  row `v` of batch entry `b` of the first argument; the batched product at `(b, v, l)` is the inner product of row `v`
  of the first argument's entry `b` with row `l` of the second's; the transposed and broadcast second norm at
  `(b, v, l)` is the squared norm of row `l`. So the three-dimensional array before the two minima holds the pairwise
  term at every `(b, v, l)`. A minimum along the last axis, then a sum along what is left, is the sum of the row
  minima; a minimum along the middle axis, then a sum, is the sum of the column minima. The initial value of each
  sum is the zero word, which is 0.
-/
import proofs.«107907_j58308476010760_1_alg».proof.Proof.Gen.ReferenceIdeal.Read
import proofs.«107907_j58308476010760_1_alg».proof.Proof.Spec
import proofs.«107907_j58308476010760_1_alg».proof.Proof.LibReduceMinMax

noncomputable section

namespace Cert.Chamfer.Ref

open Idealize.ShloMosaic Idealize.ShloMosaic.ValueIdx Cert.ReferenceIdeal Cert.ReferenceIdeal.Gen Cert.ReferenceIdeal.Read
open scoped BigOperators

variable (x0 : (⟨S64x2048x512, .f32⟩ : BufTy).Contents (Elt Ideal)) (x1 : (⟨S64x512x512, .f32⟩ : BufTy).Contents (Elt Ideal))

/-- The first argument's squared row norms. -/
theorem norm0_apply (b : Fin 64) (v : Fin 2048) :
    val_main_v1 (F := Ideal) x0 (ix2 b v) = sqn (slab (R := 2048) x0 b) v := by
  rw [val_main_v1_apply]
  simp only [val_main_cst_apply, val_main_v0_apply, Ideal.ofBits_def, Ideal.mulf_def, Ideal.ofBits_zero_f32, zero_add]
  unfold sqn slab
  refine Finset.sum_congr rfl fun k _ => ?_
  have e : idx_main_v1 (ix2 b v) k = ix3 b v k :=
    funext fun a => Fin.ext (by match a with | ⟨0, _⟩ => rfl | ⟨1, _⟩ => rfl | ⟨2, _⟩ => rfl)
  rw [e]

/-- The second argument's squared row norms. -/
theorem norm1_apply (b : Fin 64) (l : Fin 512) :
    val_main_v4 (F := Ideal) x1 (ix2 b l) = sqn (slab (R := 512) x1 b) l := by
  rw [val_main_v4_apply]
  simp only [val_main_cst_0_apply, val_main_v3_apply, Ideal.ofBits_def, Ideal.mulf_def, Ideal.ofBits_zero_f32, zero_add]
  unfold sqn slab
  refine Finset.sum_congr rfl fun k _ => ?_
  have e : idx_main_v4 (ix2 b l) k = ix3 b l k :=
    funext fun a => Fin.ext (by match a with | ⟨0, _⟩ => rfl | ⟨1, _⟩ => rfl | ⟨2, _⟩ => rfl)
  rw [e]

/-- The batched product of rows with rows. -/
theorem cross_apply (b : Fin 64) (v : Fin 2048) (l : Fin 512) :
    val_main_v6 (F := Ideal) x0 x1 (ix3 b v l) = cross (slab (R := 2048) x0 b) (slab (R := 512) x1 b) v l := by
  rw [val_main_v6_apply]
  unfold cross slab
  refine Finset.sum_congr rfl fun k _ => ?_
  have el : lidx_main_v6 (ix3 b v l) k = ix3 b v k :=
    funext fun a => Fin.ext (by match a with | ⟨0, _⟩ => rfl | ⟨1, _⟩ => rfl | ⟨2, _⟩ => rfl)
  have er : ridx_main_v6 (ix3 b v l) k = ix3 b l k :=
    funext fun a => Fin.ext (by match a with | ⟨0, _⟩ => rfl | ⟨1, _⟩ => rfl | ⟨2, _⟩ => rfl)
  rw [el, er]

/-- Before the two minima the array holds the pairwise term. -/
theorem pair_apply (b : Fin 64) (v : Fin 2048) (l : Fin 512) :
    val_main_v13 (F := Ideal) x0 x1 (ix3 b v l) = pair (slab (R := 2048) x0 b) (slab (R := 512) x1 b) v l := by
  have e9 : idx_main_v2 (idx_main_v9 (ix3 b v l)) = ix2 b v :=
    funext fun a => Fin.ext (by match a with | ⟨0, _⟩ => rfl | ⟨1, _⟩ => rfl)
  have e12 : idx_main_v5 (idx_main_v11 (idx_main_v12 (ix3 b v l))) = ix2 b l :=
    funext fun a => Fin.ext (by match a with | ⟨0, _⟩ => rfl | ⟨1, _⟩ => rfl)
  rw [val_main_v13_apply, val_main_v10_apply, val_main_v9_apply, val_main_v2_apply, e9, norm0_apply,
    val_main_v8_apply, val_main_v7_apply, val_main_cst_1_apply, cross_apply,
    val_main_v12_apply, val_main_v11_apply, val_main_v5_apply, e12, norm1_apply]
  rfl

/-- The minimum along the last axis, at `(b, v)`, is the least pairwise term of row `v`. -/
theorem rowMin_apply (b : Fin 64) (v : Fin 2048) :
    val_main_v14 (F := Ideal) x0 x1 (ix2 b v) = rowMin (slab (R := 2048) x0 b) (slab (R := 512) x1 b) v := by
  have h : Shape.Reduces S64x2048x512 [2] S64x2048 := by decide
  unfold val_main_v14
  rw [Cert.Lib.hostReduce_minimumf_single (val_main_v13 (F := Ideal) x0 x1) (val_main_cst_2 (F := Ideal))
    reducesTo_S64x2048x512_S64x2048_d2 h h_S_ (ix2 b v)]
  have hp : ∀ l : Fin 512, (val_main_v13 (F := Ideal) x0 x1 ∘ h.lift (ix2 b v)) l
      = pair (slab (R := 2048) x0 b) (slab (R := 512) x1 b) v l := by
    intro l
    have e : h.lift (ix2 b v) l = ix3 b v l :=
      funext fun a => Fin.ext (by match a with | ⟨0, _⟩ => rfl | ⟨1, _⟩ => rfl | ⟨2, _⟩ => rfl)
    exact (congrArg (val_main_v13 (F := Ideal) x0 x1) e).trans (pair_apply x0 x1 b v l)
  rw [show (val_main_v13 (F := Ideal) x0 x1 ∘ h.lift (ix2 b v))
      = fun l : Fin 512 => pair (slab (R := 2048) x0 b) (slab (R := 512) x1 b) v l from funext hp]
  rfl

/-- The minimum along the middle axis, at `(b, l)`, is the least pairwise term of column `l`. -/
theorem colMin_apply (b : Fin 64) (l : Fin 512) :
    val_main_v18 (F := Ideal) x0 x1 (ix2 b l) = colMin (slab (R := 2048) x0 b) (slab (R := 512) x1 b) l := by
  have h : Shape.Reduces S64x2048x512 [1] S64x512 := by decide
  unfold val_main_v18
  rw [Cert.Lib.hostReduce_minimumf_single (val_main_v13 (F := Ideal) x0 x1) (val_main_cst_5 (F := Ideal))
    reducesTo_S64x2048x512_S64x512_d1 h h_S_ (ix2 b l)]
  have hp : ∀ v : Fin 2048, (val_main_v13 (F := Ideal) x0 x1 ∘ h.lift (ix2 b l)) v
      = pair (slab (R := 2048) x0 b) (slab (R := 512) x1 b) v l := by
    intro v
    have e : h.lift (ix2 b l) v = ix3 b v l :=
      funext fun a => Fin.ext (by match a with | ⟨0, _⟩ => rfl | ⟨1, _⟩ => rfl | ⟨2, _⟩ => rfl)
    exact (congrArg (val_main_v13 (F := Ideal) x0 x1) e).trans (pair_apply x0 x1 b v l)
  rw [show (val_main_v13 (F := Ideal) x0 x1 ∘ h.lift (ix2 b l))
      = fun v : Fin 2048 => pair (slab (R := 2048) x0 b) (slab (R := 512) x1 b) v l from funext hp]
  rfl

/-- The sum of the row minima of batch entry `b`. -/
theorem rowSum_apply (b : Fin 64) :
    val_main_v15 (F := Ideal) x0 x1 (ix1 b) = ∑ v : Fin 2048, rowMin (slab (R := 2048) x0 b) (slab (R := 512) x1 b) v := by
  rw [val_main_v15_apply]
  simp only [val_main_cst_3_apply, Ideal.ofBits_def, Ideal.ofBits_zero_f32, zero_add]
  refine Finset.sum_congr rfl fun k _ => ?_
  have e : idx_main_v15 (ix1 b) k = ix2 b k :=
    funext fun a => Fin.ext (by match a with | ⟨0, _⟩ => rfl | ⟨1, _⟩ => rfl)
  rw [e, rowMin_apply]

/-- The sum of the column minima of batch entry `b`. -/
theorem colSum_apply (b : Fin 64) :
    val_main_v19 (F := Ideal) x0 x1 (ix1 b) = ∑ l : Fin 512, colMin (slab (R := 2048) x0 b) (slab (R := 512) x1 b) l := by
  rw [val_main_v19_apply]
  simp only [val_main_cst_6_apply, Ideal.ofBits_def, Ideal.ofBits_zero_f32, zero_add]
  refine Finset.sum_congr rfl fun k _ => ?_
  have e : idx_main_v19 (ix1 b) k = ix2 b k :=
    funext fun a => Fin.ext (by match a with | ⟨0, _⟩ => rfl | ⟨1, _⟩ => rfl)
  rw [e, colMin_apply]

/-- The reference's last stage is the specification's result array. -/
theorem result_eq : val_main_v22 (F := Ideal) x0 x1 = result x0 x1 := by
  funext i
  obtain ⟨b, rfl⟩ : ∃ b : Fin 64, i = ix1 b := ⟨i 0, eq_ix1 i⟩
  rw [val_main_v22_apply, val_main_v17_apply, val_main_v21_apply, rowSum_apply, colSum_apply,
    val_main_v16_apply, val_main_v20_apply, val_main_cst_4_apply, val_main_cst_7_apply]
  rfl

end Cert.Chamfer.Ref

end
-- ==== Proof.LibBatchedRowDot.lean ====
/-
  General lemmas about a contraction of the LAST axes of two operands, read at the extended reals.

  * `RowDot`: a dot whose dimension numbers contract axis 1 of an [M, K] operand with axis 1 of an [N, K]
    operand, with no batch axis (a matrix times the transpose of another), has at the output entry (p, q) the
    operand entries (p, k) and (q, k) at contraction position k: its value there is the sum over k of
    l (p, k) · r (q, k). Stated for a kernel's matrix product into a zero accumulator.
  * `BatchedRowDot`: the same under one leading batch axis: [B, M, K] with [B, N, K], batch axis 0 on both
    sides, contracting axis 2 with axis 2; the entry (e, p, q) is the sum over k of l (e, p, k) · r (e, q, k).
    Stated for the host's dot_general.
  Both hold for every record with those dimension numbers, whatever its well-formedness proof.

  How each is obtained. The contraction's entry is a sum over the contraction index set, whose one axis has
  extent K; that index set is identified with the range of k. The operand indices are read axis by axis: an
  operand's batch axis carries the output's batch coordinate, its free axis carries the output coordinate of
  that operand's row, and its contracted axis carries k. With the dimension lists written out, every record
  with those lists is the written-out record at its own well-formedness proof, so the general statements
  follow from the written-out ones.
-/
import Idealize.ShloMosaic.PureOps.Ideal.Laws
import Idealize.ShloMosaic.Lib.ValueIdx

noncomputable section

namespace Idealize.ShloMosaic.RowDot

open Idealize.ShloMosaic Idealize.ShloMosaic.ValueIdx
open scoped BigOperators

variable {B M K N : Nat}

/-! ## A matrix times the transpose of another: [M, K] with [N, K], contracting the last axes -/

/-- The record with the dimension numbers of a product with a transposed right operand, at any well-formedness proof. -/
abbrev mkT (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) :=
  ⟨[1], [1], [0], [0], [], [], wf⟩

section
variable (wf : DotDims.WF (⟨2, ![M, K]⟩ : Shape) (⟨2, ![N, K]⟩ : Shape) (⟨2, ![M, N]⟩ : Shape) [1] [1] [0] [0] [] [])

/-- The left operand's row coordinate is the output's row coordinate. -/
theorem lhsT0 (j : (⟨2, ![M, N]⟩ : Shape).Idx) (q : (mkT wf).contr.Idx) : ((mkT wf).lhsIdx j q 0).val = (j 0).val := by
  unfold DotDims.lhsIdx
  rw [dif_neg (show ¬(0 : Fin (⟨2, ![M, K]⟩ : Shape).rank) ∈ (mkT wf).lhsBatch from List.not_mem_nil),
    dif_pos (show (0 : Fin (⟨2, ![M, K]⟩ : Shape).rank) ∈ (mkT wf).lhsNonContracting from List.mem_singleton_self _)]
  rfl

/-- The left operand's column coordinate is the contraction position. -/
theorem lhsT1 (j : (⟨2, ![M, N]⟩ : Shape).Idx) (q : (mkT wf).contr.Idx) : ((mkT wf).lhsIdx j q 1).val = (q ⟨0, Nat.one_pos⟩).val :=
  (mkT wf).lhsIdx_val_of_single rfl j q

/-- The right operand's row coordinate is the output's column coordinate. -/
theorem rhsT0 (j : (⟨2, ![M, N]⟩ : Shape).Idx) (q : (mkT wf).contr.Idx) : ((mkT wf).rhsIdx j q 0).val = (j 1).val := by
  unfold DotDims.rhsIdx
  rw [dif_neg (show ¬(0 : Fin (⟨2, ![N, K]⟩ : Shape).rank) ∈ (mkT wf).rhsBatch from List.not_mem_nil),
    dif_pos (show (0 : Fin (⟨2, ![N, K]⟩ : Shape).rank) ∈ (mkT wf).rhsNonContracting from List.mem_singleton_self _)]
  rfl

/-- The right operand's column coordinate is the contraction position. -/
theorem rhsT1 (j : (⟨2, ![M, N]⟩ : Shape).Idx) (q : (mkT wf).contr.Idx) : ((mkT wf).rhsIdx j q 1).val = (q ⟨0, Nat.one_pos⟩).val :=
  (mkT wf).rhsIdx_val_of_single rfl j q

/-- The contraction sum at the entry (p, q): over k, the left entry (p, k) times the right entry (q, k). -/
theorem sum_mkT {α : Type} [AddCommMonoid α] [Mul α] (l : (⟨2, ![M, K]⟩ : Shape).Idx → α) (r : (⟨2, ![N, K]⟩ : Shape).Idx → α)
    (p : Fin M) (q : Fin N) :
    ∑ k : (mkT wf).contr.Idx, l ((mkT wf).lhsIdx (ix2 p q) k) * r ((mkT wf).rhsIdx (ix2 p q) k)
      = ∑ k : Fin K, l (ix2 p k) * r (ix2 q k) := by
  rw [← Equiv.sum_comp (contrEquiv1 (mkT wf) K rfl rfl).symm]
  refine Finset.sum_congr rfl fun k _ => ?_
  have hk := contrEquiv1_symm_val (mkT wf) K rfl rfl k
  have el : (mkT wf).lhsIdx (ix2 p q) ((contrEquiv1 (mkT wf) K rfl rfl).symm k) = ix2 p k := funext fun a => Fin.ext (by
    match a with
    | ⟨0, _⟩ => exact lhsT0 wf _ _
    | ⟨1, _⟩ => exact (lhsT1 wf _ _).trans hk)
  have er : (mkT wf).rhsIdx (ix2 p q) ((contrEquiv1 (mkT wf) K rfl rfl).symm k) = ix2 q k := funext fun a => Fin.ext (by
    match a with
    | ⟨0, _⟩ => exact rhsT0 wf _ _
    | ⟨1, _⟩ => exact (rhsT1 wf _ _).trans hk)
  rw [el, er]
end

/-- Every record whose dimension numbers are those of the product with a transposed right operand is `mkT` of its own
    well-formedness proof, so its contraction sum is the same. -/
theorem sum_of_transposed {α : Type} [AddCommMonoid α] [Mul α]
    (D : DotDims (⟨2, ![M, K]⟩ : Shape) (⟨2, ![N, K]⟩ : Shape) (⟨2, ![M, N]⟩ : Shape))
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → α) (r : (⟨2, ![N, K]⟩ : Shape).Idx → α) (p : Fin M) (q : Fin N) :
    ∑ k : D.contr.Idx, l (D.lhsIdx (ix2 p q) k) * r (D.rhsIdx (ix2 p q) k) = ∑ k : Fin K, l (ix2 p k) * r (ix2 q k) := by
  obtain ⟨lc, rc, ln, rn, lb, rb, wf⟩ := D
  simp only at h1 h2 h3 h4 h5 h6
  subst h1 h2 h3 h4 h5 h6
  exact sum_mkT wf l r p q

/-- A kernel's product of an [M, K] matrix with the transpose of an [N, K] matrix, into the zero accumulator, at the entry (p, q). -/
theorem matmul_zero_apply {φ₁ φ₂ : FTy}
    (D : DotDims (⟨2, ![M, K]⟩ : Shape) (⟨2, ![N, K]⟩ : Shape) (⟨2, ![M, N]⟩ : Shape))
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal (⟨2, ![M, K]⟩ : Shape) φ₁) (r : FVec Ideal (⟨2, ![N, K]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 q k) : EReal) :=
  (Ideal.matmul_constant_zero_apply D prec l r (ix2 p q)).trans
    (sum_of_transposed (α := EReal) D h1 h2 h3 h4 h5 h6 l r p q)

/-! ## The same under a leading batch axis: [B, M, K] with [B, N, K] -/

/-- Axis 1 is not the batch axis 0. -/
theorem one_not_mem_batch : ¬ (1 : Fin 3) ∈ ([0] : List (Fin 3)) := by decide

/-- The record with the dimension numbers of the batched product with a transposed right operand, at any well-formedness proof. -/
abbrev mkB (wf : DotDims.WF (⟨3, ![B, M, K]⟩ : Shape) (⟨3, ![B, N, K]⟩ : Shape) (⟨3, ![B, M, N]⟩ : Shape) [2] [2] [1] [1] [0] [0]) :
    DotDims (⟨3, ![B, M, K]⟩ : Shape) (⟨3, ![B, N, K]⟩ : Shape) (⟨3, ![B, M, N]⟩ : Shape) :=
  ⟨[2], [2], [1], [1], [0], [0], wf⟩

section
variable (wf : DotDims.WF (⟨3, ![B, M, K]⟩ : Shape) (⟨3, ![B, N, K]⟩ : Shape) (⟨3, ![B, M, N]⟩ : Shape) [2] [2] [1] [1] [0] [0])

/-- The left operand's batch coordinate is the output's batch coordinate. -/
theorem lhsB0 (j : (⟨3, ![B, M, N]⟩ : Shape).Idx) (q : (mkB wf).contr.Idx) : ((mkB wf).lhsIdx j q 0).val = (j 0).val := by
  unfold DotDims.lhsIdx
  rw [dif_pos (show (0 : Fin (⟨3, ![B, M, K]⟩ : Shape).rank) ∈ (mkB wf).lhsBatch from List.mem_singleton_self _)]
  rfl

/-- The left operand's row coordinate is the output's row coordinate. -/
theorem lhsB1 (j : (⟨3, ![B, M, N]⟩ : Shape).Idx) (q : (mkB wf).contr.Idx) : ((mkB wf).lhsIdx j q 1).val = (j 1).val := by
  unfold DotDims.lhsIdx
  rw [dif_neg (show ¬(1 : Fin (⟨3, ![B, M, K]⟩ : Shape).rank) ∈ (mkB wf).lhsBatch from one_not_mem_batch),
    dif_pos (show (1 : Fin (⟨3, ![B, M, K]⟩ : Shape).rank) ∈ (mkB wf).lhsNonContracting from List.mem_singleton_self _)]
  rfl

/-- The left operand's last coordinate is the contraction position. -/
theorem lhsB2 (j : (⟨3, ![B, M, N]⟩ : Shape).Idx) (q : (mkB wf).contr.Idx) : ((mkB wf).lhsIdx j q 2).val = (q ⟨0, Nat.one_pos⟩).val :=
  (mkB wf).lhsIdx_val_of_single rfl j q

/-- The right operand's batch coordinate is the output's batch coordinate. -/
theorem rhsB0 (j : (⟨3, ![B, M, N]⟩ : Shape).Idx) (q : (mkB wf).contr.Idx) : ((mkB wf).rhsIdx j q 0).val = (j 0).val := by
  unfold DotDims.rhsIdx
  rw [dif_pos (show (0 : Fin (⟨3, ![B, N, K]⟩ : Shape).rank) ∈ (mkB wf).rhsBatch from List.mem_singleton_self _)]
  rfl

/-- The right operand's row coordinate is the output's column coordinate. -/
theorem rhsB1 (j : (⟨3, ![B, M, N]⟩ : Shape).Idx) (q : (mkB wf).contr.Idx) : ((mkB wf).rhsIdx j q 1).val = (j 2).val := by
  unfold DotDims.rhsIdx
  rw [dif_neg (show ¬(1 : Fin (⟨3, ![B, N, K]⟩ : Shape).rank) ∈ (mkB wf).rhsBatch from one_not_mem_batch),
    dif_pos (show (1 : Fin (⟨3, ![B, N, K]⟩ : Shape).rank) ∈ (mkB wf).rhsNonContracting from List.mem_singleton_self _)]
  rfl

/-- The right operand's last coordinate is the contraction position. -/
theorem rhsB2 (j : (⟨3, ![B, M, N]⟩ : Shape).Idx) (q : (mkB wf).contr.Idx) : ((mkB wf).rhsIdx j q 2).val = (q ⟨0, Nat.one_pos⟩).val :=
  (mkB wf).rhsIdx_val_of_single rfl j q

/-- The contraction sum at the entry (e, p, q): over k, the left entry (e, p, k) times the right entry (e, q, k). -/
theorem sum_mkB {α : Type} [AddCommMonoid α] [Mul α] (l : (⟨3, ![B, M, K]⟩ : Shape).Idx → α) (r : (⟨3, ![B, N, K]⟩ : Shape).Idx → α)
    (e : Fin B) (p : Fin M) (q : Fin N) :
    ∑ k : (mkB wf).contr.Idx, l ((mkB wf).lhsIdx (ix3 e p q) k) * r ((mkB wf).rhsIdx (ix3 e p q) k)
      = ∑ k : Fin K, l (ix3 e p k) * r (ix3 e q k) := by
  rw [← Equiv.sum_comp (contrEquiv1 (mkB wf) K rfl rfl).symm]
  refine Finset.sum_congr rfl fun k _ => ?_
  have hk := contrEquiv1_symm_val (mkB wf) K rfl rfl k
  have el : (mkB wf).lhsIdx (ix3 e p q) ((contrEquiv1 (mkB wf) K rfl rfl).symm k) = ix3 e p k := funext fun a => Fin.ext (by
    match a with
    | ⟨0, _⟩ => exact lhsB0 wf _ _
    | ⟨1, _⟩ => exact lhsB1 wf _ _
    | ⟨2, _⟩ => exact (lhsB2 wf _ _).trans hk)
  have er : (mkB wf).rhsIdx (ix3 e p q) ((contrEquiv1 (mkB wf) K rfl rfl).symm k) = ix3 e q k := funext fun a => Fin.ext (by
    match a with
    | ⟨0, _⟩ => exact rhsB0 wf _ _
    | ⟨1, _⟩ => exact rhsB1 wf _ _
    | ⟨2, _⟩ => exact (rhsB2 wf _ _).trans hk)
  rw [el, er]
end

/-- Every record whose dimension numbers are the batched product's is `mkB` of its own well-formedness proof, so its
    contraction sum is the same. -/
theorem sum_of_batched {α : Type} [AddCommMonoid α] [Mul α]
    (D : DotDims (⟨3, ![B, M, K]⟩ : Shape) (⟨3, ![B, N, K]⟩ : Shape) (⟨3, ![B, M, N]⟩ : Shape))
    (h1 : D.lhsContracting = [2]) (h2 : D.rhsContracting = [2]) (h3 : D.lhsNonContracting = [1])
    (h4 : D.rhsNonContracting = [1]) (h5 : D.lhsBatch = [0]) (h6 : D.rhsBatch = [0])
    (l : (⟨3, ![B, M, K]⟩ : Shape).Idx → α) (r : (⟨3, ![B, N, K]⟩ : Shape).Idx → α) (e : Fin B) (p : Fin M) (q : Fin N) :
    ∑ k : D.contr.Idx, l (D.lhsIdx (ix3 e p q) k) * r (D.rhsIdx (ix3 e p q) k)
      = ∑ k : Fin K, l (ix3 e p k) * r (ix3 e q k) := by
  obtain ⟨lc, rc, ln, rn, lb, rb, wf⟩ := D
  simp only at h1 h2 h3 h4 h5 h6
  subst h1 h2 h3 h4 h5 h6
  exact sum_mkB wf l r e p q

/-- The host's dot_general of [B, M, K] with [B, N, K] over the last axes, batched over the first, at the entry (e, p, q). -/
theorem dotGeneral_batched_apply {φ₁ φ₂ : FTy}
    (D : DotDims (⟨3, ![B, M, K]⟩ : Shape) (⟨3, ![B, N, K]⟩ : Shape) (⟨3, ![B, M, N]⟩ : Shape))
    (h1 : D.lhsContracting = [2]) (h2 : D.rhsContracting = [2]) (h3 : D.lhsNonContracting = [1])
    (h4 : D.rhsNonContracting = [1]) (h5 : D.lhsBatch = [0]) (h6 : D.rhsBatch = [0])
    (prec : Option ContractPrecision) (sched : HostSchedule)
    (l : FVec Ideal (⟨3, ![B, M, K]⟩ : Shape) φ₁) (r : FVec Ideal (⟨3, ![B, N, K]⟩ : Shape) φ₂)
    (e : Fin B) (p : Fin M) (q : Fin N) :
    FloatOps.dotGeneral D prec sched l r (ix3 e p q)
      = ∑ k : Fin K, (l (ix3 e p k) : EReal) * (r (ix3 e q k) : EReal) :=
  (Ideal.dotGeneral_apply D prec sched l r (ix3 e p q)).trans
    (sum_of_batched (α := EReal) D h1 h2 h3 h4 h5 h6 l r e p q)

end Idealize.ShloMosaic.RowDot

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KernelPay.lean ====
/-
  The kernel body's value at the extended reals: every entry of the block it stores is `dist` of the two loaded blocks.

  The body's arithmetic is cut into named pieces, each read at an entry.
  * A loaded block `[1, R, 512]` made the matrix `[R, 512]` reads, at `(r, k)`, the block at `(0, r, k)`.
  * `rowNorm m`: the squares of `m` summed along each row, made a column and repeated along the rows; at `(v, l)` it is
    the squared norm of row `v` of `m`.
  * `colNorm m`: the same sums made a column, transposed to a row and repeated down the rows; at `(v, l)` it is the
    squared norm of row `l` of `m`.
  * `prod a b`: the product of `a` with the transpose of `b` into a zero accumulator (the narrowing of the operands is
    the identity here); at `(v, l)` it is the inner product of row `v` of `a` with row `l` of `b`.
  So the matrix `pairV` holds the pairwise term at every `(v, l)`.
  * `rowMean p`: the minimum of `p` along each row, then the sum of those minima, as a one-entry matrix;
    `colMean p` the same with the minimum along each column. `tailV p` divides the two by 2048 and by 512, adds them and
    repeats the one number over the 128 lanes of the stored block.
  The body's payload is `tailV (pairV …)` by unfolding.
-/
import proofs.«107907_j58308476010760_1_alg».proof.Proof.Gen.KernelIdeal.Skeleton
import proofs.«107907_j58308476010760_1_alg».proof.Proof.Spec
import proofs.«107907_j58308476010760_1_alg».proof.Proof.LibReduceMinMax
import proofs.«107907_j58308476010760_1_alg».proof.Proof.LibBatchedRowDot
import proofs.«107907_j58308476010760_1_alg».proof.Proof.LibPlainDot
import Idealize.ShloMosaic.Lib.Pipeline.Value
import Idealize.ShloMosaic.Lib.ValueLayout

noncomputable section

namespace Cert.Chamfer.Ker

open Idealize.ShloMosaic Idealize.ShloMosaic.ValueIdx Cert.KernelIdeal Cert.KernelIdeal.Gen
open scoped BigOperators

/-! ## The pieces -/

/-- The first block as a matrix. -/
def mat0 (v0 : Vec Ideal S1x2048x512 .f32) : FVec Ideal S2048x512 .f32 :=
  shapeCast S2048x512 v0 shapeCasts_S1x2048x512_S2048x512

/-- The second block as a matrix. -/
def mat1 (v2 : Vec Ideal S1x512x512 .f32) : FVec Ideal S512x512 .f32 :=
  shapeCast S512x512 v2 shapeCasts_S1x512x512_S512x512

/-- The squared row norms of the first matrix, repeated along the rows. -/
def rowNorm (m : FVec Ideal S2048x512 .f32) : FVec Ideal S2048x512 .f32 :=
  broadcastTo S2048x512
    (shapeCast S2048x1 (multiReduction .add [1] S2048 (mulf m m) 0x00000000#32 reduces_S2048x512_S2048 (.inl rfl) rfl)
      shapeCasts_S2048_S2048x1)
    broadcasts_S2048x1_S2048x512

/-- The squared row norms of the second matrix, as a row repeated down the rows. -/
def colNorm (m : FVec Ideal S512x512 .f32) : FVec Ideal S2048x512 .f32 :=
  broadcastTo S2048x512
    (transpose S1x512 [1, 0]
      (shapeCast S512x1 (multiReduction .add [1] S512 (mulf m m) 0x00000000#32 reduces_S512x512_S512 (.inl rfl) rfl)
        shapeCasts_S512_S512x1)
      transposes_S512x1_p1_0_S1x512)
    broadcasts_S1x512_S2048x512

/-- The product of the first matrix with the transpose of the second. -/
def prod (a : FVec Ideal S2048x512 .f32) (b : FVec Ideal S512x512 .f32) : FVec Ideal S2048x512 .f32 :=
  matmul dot_S2048x512_S512x512_S2048x512_1_1_0_0_n_n none (truncf .bf16 a bitsLt_bf16_f32) (truncf .bf16 b bitsLt_bf16_f32)
    (constant S2048x512 .f32 0x00000000#32)

/-- The matrix of pairwise terms. -/
def pairV (v0 : Vec Ideal S1x2048x512 .f32) (v2 : Vec Ideal S1x512x512 .f32) : FVec Ideal S2048x512 .f32 :=
  addf (subf (rowNorm (mat0 v0)) (mulf (broadcast S2048x512 (Scalar.ofBits (F := Ideal) .f32 0x40000000#32)) (prod (mat0 v0) (mat1 v2))))
    (colNorm (mat1 v2))

/-- The minimum of each row. -/
def rowMins (p : FVec Ideal S2048x512 .f32) : FVec Ideal S2048 .f32 :=
  multiReduction .minimumf [1] S2048 p 0x7F800000#32 reduces_S2048x512_S2048 (.inl rfl) rfl

/-- The minimum of each column. -/
def colMins (p : FVec Ideal S2048x512 .f32) : FVec Ideal S512 .f32 :=
  multiReduction .minimumf [0] S512 p 0x7F800000#32 reduces_S2048x512_S512 (.inl rfl) rfl

/-- The sum of the row minima, as a one-entry matrix. -/
def rowMean (p : FVec Ideal S2048x512 .f32) : FVec Ideal S1x1 .f32 :=
  shapeCast S1x1
    (multiReduction .add [0] S1 (shapeCast S2048x1 (rowMins p) shapeCasts_S2048_S2048x1)
      0x00000000#32 reduces_S2048x1_S1 (.inl rfl) rfl)
    shapeCasts_S1_S1x1

/-- The sum of the column minima, as a one-entry matrix. -/
def colMean (p : FVec Ideal S2048x512 .f32) : FVec Ideal S1x1 .f32 :=
  shapeCast S1x1
    (multiReduction .add [1] S1 (shapeCast S1x512 (colMins p) shapeCasts_S512_S1x512)
      0x00000000#32 reduces_S1x512_S1 (.inl rfl) rfl)
    shapeCasts_S1_S1x1

/-- From the matrix of pairwise terms to the stored block. -/
def tailV (p : FVec Ideal S2048x512 .f32) : FVec Ideal S1x1x128 .f32 :=
  broadcastTo S1x1x128
    (shapeCast S1x1x1
      (shapeCast S1x1x1
        (addf (divf (rowMean p) (broadcast S1x1 (Scalar.ofBits (F := Ideal) .f32 0x45000000#32)))
          (divf (colMean p) (broadcast S1x1 (Scalar.ofBits (F := Ideal) .f32 0x44000000#32))))
        shapeCasts_S1x1_S1x1x1)
      shapeCasts_S1x1x1_S1x1x1)
    broadcasts_S1x1x1_S1x1x128

/-- The body's payload is the tail of the pairwise matrix. -/
theorem pay_eq (v0 : Vec Ideal S1x2048x512 .f32) (v2 : Vec Ideal S1x512x512 .f32) :
    k0_pay1 (F := Ideal) v0 v2 = tailV (pairV v0 v2) := rfl

/-! ## The pieces read at an entry -/

theorem mat0_apply (v0 : Vec Ideal S1x2048x512 .f32) (v : Fin 2048) (k : Fin 512) :
    mat0 v0 (ix2 v k) = v0 (ix3 (0 : Fin 1) v k) :=
  shapeCast_1ab_ab_apply v0 shapeCasts_S1x2048x512_S2048x512 v k

theorem mat1_apply (v2 : Vec Ideal S1x512x512 .f32) (l : Fin 512) (k : Fin 512) :
    mat1 v2 (ix2 l k) = v2 (ix3 (0 : Fin 1) l k) :=
  shapeCast_1ab_ab_apply v2 shapeCasts_S1x512x512_S512x512 l k

/-- At `(v, l)` the repeated row norms hold the squared norm of row `v`. -/
theorem rowNorm_apply (m : FVec Ideal S2048x512 .f32) (v : Fin 2048) (l : Fin 512) :
    rowNorm m (ix2 v l) = ∑ k : Fin 512, m (ix2 v k) * m (ix2 v k) :=
  (PlainDot.broadcastTo_a1_ab_apply _ broadcasts_S2048x1_S2048x512 v l).trans
    ((PlainDot.shapeCast_a_a1_apply _ shapeCasts_S2048_S2048x1 v (0 : Fin 1)).trans
      (PlainDot.rowSum_apply (mulf m m) 0x00000000#32 reduces_S2048x512_S2048 (.inl rfl) rfl v))

/-- At `(v, l)` the second matrix's norms, laid along a row, hold the squared norm of its row `l`. -/
theorem colNorm_apply (m : FVec Ideal S512x512 .f32) (v : Fin 2048) (l : Fin 512) :
    colNorm m (ix2 v l) = ∑ k : Fin 512, m (ix2 l k) * m (ix2 l k) :=
  (broadcastTo_1b_ab_apply _ broadcasts_S1x512_S2048x512 v l).trans
    ((transpose_ix2_apply _ transposes_S512x1_p1_0_S1x512 (0 : Fin 1) l).trans
      ((PlainDot.shapeCast_a_a1_apply _ shapeCasts_S512_S512x1 l (0 : Fin 1)).trans
        (PlainDot.rowSum_apply (mulf m m) 0x00000000#32 reduces_S512x512_S512 (.inl rfl) rfl l)))

/-- At `(v, l)` the product holds the inner product of row `v` of the first matrix with row `l` of the second. -/
theorem prod_apply (a : FVec Ideal S2048x512 .f32) (b : FVec Ideal S512x512 .f32) (v : Fin 2048) (l : Fin 512) :
    prod a b (ix2 v l) = ∑ k : Fin 512, a (ix2 v k) * b (ix2 l k) :=
  RowDot.matmul_zero_apply dot_S2048x512_S512x512_S2048x512_1_1_0_0_n_n rfl rfl rfl rfl rfl rfl none
    (truncf .bf16 a bitsLt_bf16_f32) (truncf .bf16 b bitsLt_bf16_f32) v l

/-- The pairwise matrix holds the pairwise term of the two blocks' matrices. -/
theorem pairV_apply (v0 : Vec Ideal S1x2048x512 .f32) (v2 : Vec Ideal S1x512x512 .f32) (v : Fin 2048) (l : Fin 512) :
    pairV v0 v2 (ix2 v l)
      = pair (fun r k => v0 (ix3 (0 : Fin 1) r k)) (fun r k => v2 (ix3 (0 : Fin 1) r k)) v l := by
  show rowNorm (mat0 v0) (ix2 v l) - Ideal.ofBits .f32 0x40000000#32 * prod (mat0 v0) (mat1 v2) (ix2 v l)
      + colNorm (mat1 v2) (ix2 v l) = _
  rw [rowNorm_apply, prod_apply, colNorm_apply]
  simp only [mat0_apply, mat1_apply]
  rfl

/-! ## The two means of minima -/

/-- The mean of the row minima plus the mean of the column minima, of any matrix of terms. -/
def meanMins (P : Fin 2048 → Fin 512 → EReal) : EReal :=
  Ideal.div (∑ v : Fin 2048, (Finset.univ : Finset (Fin 512)).fold min (Ideal.ofBits .f32 0x7F800000#32) (fun l => P v l))
      (Ideal.ofBits .f32 0x45000000#32)
    + Ideal.div (∑ l : Fin 512, (Finset.univ : Finset (Fin 2048)).fold min (Ideal.ofBits .f32 0x7F800000#32) (fun v => P v l))
      (Ideal.ofBits .f32 0x44000000#32)

theorem dist_eq (A : Fin 2048 → Fin 512 → EReal) (B : Fin 512 → Fin 512 → EReal) : dist A B = meanMins (pair A B) := rfl

/-- The minimum along a row, as a fold over the columns. -/
theorem rowMins_apply (p : FVec Ideal S2048x512 .f32) (v : Fin 2048) :
    rowMins p (ix1 v)
      = (Finset.univ : Finset (Fin 512)).fold min (Ideal.ofBits .f32 0x7F800000#32) (fun l => p (ix2 v l)) := by
  refine (Cert.Lib.multiReduction_minimumf_single p 0x7F800000#32 reduces_S2048x512_S2048 (.inl rfl) rfl (ix1 v)).trans ?_
  have hp : ∀ l : Fin 512, (p ∘ reduces_S2048x512_S2048.lift (ix1 v)) l = p (ix2 v l) := fun l =>
    congrArg p (funext fun a => Fin.ext (by match a with | ⟨0, _⟩ => rfl | ⟨1, _⟩ => rfl))
  rw [show (p ∘ reduces_S2048x512_S2048.lift (ix1 v)) = fun l : Fin 512 => p (ix2 v l) from funext hp]
  rfl

/-- The minimum along a column, as a fold over the rows. -/
theorem colMins_apply (p : FVec Ideal S2048x512 .f32) (l : Fin 512) :
    colMins p (ix1 l)
      = (Finset.univ : Finset (Fin 2048)).fold min (Ideal.ofBits .f32 0x7F800000#32) (fun v => p (ix2 v l)) := by
  refine (Cert.Lib.multiReduction_minimumf_single p 0x7F800000#32 reduces_S2048x512_S512 (.inl rfl) rfl (ix1 l)).trans ?_
  have hp : ∀ v : Fin 2048, (p ∘ reduces_S2048x512_S512.lift (ix1 l)) v = p (ix2 v l) := fun v =>
    congrArg p (funext fun a => Fin.ext (by match a with | ⟨0, _⟩ => rfl | ⟨1, _⟩ => rfl))
  rw [show (p ∘ reduces_S2048x512_S512.lift (ix1 l)) = fun v : Fin 2048 => p (ix2 v l) from funext hp]
  rfl

/-- The one entry of `rowMean`: the sum of the row minima. -/
theorem rowMean_apply (p : FVec Ideal S2048x512 .f32) :
    rowMean p (ix2 (0 : Fin 1) (0 : Fin 1))
      = ∑ v : Fin 2048, (Finset.univ : Finset (Fin 512)).fold min (Ideal.ofBits .f32 0x7F800000#32) (fun l => p (ix2 v l)) := by
  refine (PlainDot.shapeCast_a_a1_apply _ shapeCasts_S1_S1x1 (0 : Fin 1) (0 : Fin 1)).trans ?_
  refine (Ideal.multiReduction_add_single (shapeCast S2048x1 (rowMins p) shapeCasts_S2048_S2048x1) 0x00000000#32
    reduces_S2048x1_S1 (.inl rfl) rfl (ix1 (0 : Fin 1))).trans ?_
  show (∑ v : Fin 2048, shapeCast S2048x1 (rowMins p) shapeCasts_S2048_S2048x1 (reduces_S2048x1_S1.lift (ix1 (0 : Fin 1)) v)) = _
  refine Finset.sum_congr rfl fun v _ => ?_
  have e : reduces_S2048x1_S1.lift (ix1 (0 : Fin 1)) v = ix2 v (0 : Fin 1) :=
    funext fun a => Fin.ext (by match a with | ⟨0, _⟩ => rfl | ⟨1, _⟩ => rfl)
  exact (congrArg (shapeCast S2048x1 (rowMins p) shapeCasts_S2048_S2048x1) e).trans
    ((PlainDot.shapeCast_a_a1_apply _ shapeCasts_S2048_S2048x1 v (0 : Fin 1)).trans (rowMins_apply p v))

/-- The one entry of `colMean`: the sum of the column minima. -/
theorem colMean_apply (p : FVec Ideal S2048x512 .f32) :
    colMean p (ix2 (0 : Fin 1) (0 : Fin 1))
      = ∑ l : Fin 512, (Finset.univ : Finset (Fin 2048)).fold min (Ideal.ofBits .f32 0x7F800000#32) (fun v => p (ix2 v l)) := by
  refine (PlainDot.shapeCast_a_a1_apply _ shapeCasts_S1_S1x1 (0 : Fin 1) (0 : Fin 1)).trans ?_
  refine (PlainDot.rowSum_apply (shapeCast S1x512 (colMins p) shapeCasts_S512_S1x512) 0x00000000#32
    reduces_S1x512_S1 (.inl rfl) rfl (0 : Fin 1)).trans ?_
  refine Finset.sum_congr rfl fun l _ => ?_
  exact (shapeCast_a_1a_apply _ shapeCasts_S512_S1x512 (0 : Fin 1) l).trans (colMins_apply p l)

/-- Every entry of the stored block is the two means of minima of the pairwise matrix. -/
theorem tailV_apply (p : FVec Ideal S2048x512 .f32) (y : S1x1x128.Idx) :
    tailV p y = meanMins (fun v l => p (ix2 v l)) := by
  refine (broadcastTo_apply _ broadcasts_S1x1x1_S1x1x128 y (ix3 (0 : Fin 1) (0 : Fin 1) (0 : Fin 1)) (fun a => ?_)).trans ?_
  · match a with
    | ⟨0, _⟩ => rfl
    | ⟨1, _⟩ => rfl
    | ⟨2, _⟩ => rfl
  refine (congrFun (shapeCast_self _ shapeCasts_S1x1x1_S1x1x1) _).trans ?_
  refine (shapeCast_ab_1ab_apply _ shapeCasts_S1x1_S1x1x1 (0 : Fin 1) (0 : Fin 1) (0 : Fin 1)).trans ?_
  show Ideal.div (rowMean p (ix2 (0 : Fin 1) (0 : Fin 1))) (Ideal.ofBits .f32 0x45000000#32)
      + Ideal.div (colMean p (ix2 (0 : Fin 1) (0 : Fin 1))) (Ideal.ofBits .f32 0x44000000#32) = _
  rw [rowMean_apply, colMean_apply]
  rfl

/-- Every entry of the body's payload is `dist` of the two loaded blocks' matrices. -/
theorem pay_apply (v0 : Vec Ideal S1x2048x512 .f32) (v2 : Vec Ideal S1x512x512 .f32) (y : S1x1x128.Idx) :
    k0_pay1 (F := Ideal) v0 v2 y
      = dist (fun r k => v0 (ix3 (0 : Fin 1) r k)) (fun r k => v2 (ix3 (0 : Fin 1) r k)) := by
  rw [pay_eq, tailV_apply, dist_eq]
  exact congrArg meanMins (funext fun v => funext fun l => pairV_apply v0 v2 v l)

end Cert.Chamfer.Ker

end
-- ==== Proof.KernelRun.lean ====
/-
  The kernel's run at the extended reals ends with its result at `result` of the two argument arrays.

  The grid has one point per batch entry. Point `t` loads batch entry `t` of each argument as a block with a leading unit
  axis, and stores a `[1, 1, 128]` block whose every lane is `dist` of the two loaded blocks' matrices. The three
  windows' index maps move along the batch axis together and stay at block 0 of the other axes (decided over the 64
  points), so what point `t` writes back is row `t` of ONE array `lanes`: every lane of row `b` holds `dist` of batch
  entry `b` of the arguments. The 64 blocks tile the `[64, 1, 128]` output array (row `b` is in the block of the point
  whose batch entry is `b`), so after the region the output array is `lanes` of the arguments.

  After the region the program keeps lane 0 of every row (a slice `[0:64, 0:1, 0:1]`) and drops the two unit axes (a
  reshape): the entry `b` of the result is the output array at `(b, 0, 0)`, which is `dist` of batch entry `b`.
-/
import proofs.«107907_j58308476010760_1_alg».proof.Proof.Gen.KernelIdeal.Frame
import proofs.«107907_j58308476010760_1_alg».proof.Proof.KernelPay
import Idealize.ShloMosaic.Lib.Pipeline.Value
import Idealize.ShloMosaic.Lib.StableHlo.Run

noncomputable section

namespace Cert.Chamfer.KerRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kernel's output array as one function of the two argument arrays: every lane of row `b` holds `dist` of batch
    entry `b`. -/
def lanes (x0 : S64x2048x512.Idx → EReal) (x1 : S64x512x512.Idx → EReal) : S64x1x128.Idx → EReal :=
  fun i => dist (slab (R := 2048) x0 (i 0)) (slab (R := 512) x1 (i 0))

theorem hz : (![0, 0, 0] : Fin 3 → Nat) = fun _ => 0 := funext fun a => by fin_cases a <;> rfl

/-- The printed index maps over the grid: all three windows move along the batch axis together and sit at block 0
    of the other two axes. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 63 :=
  (by decide +kernel : ∀ t : Fin grid0.N, _)

/-- Every batch entry is some point's. -/
theorem idx_onto : ∀ q0 : Fin 64, ∃ t : Fin cfg0.N, win0_2.index t = ![q0.val, 0, 0] :=
  (by decide +kernel : ∀ q0 : Fin 64, ∃ t : Fin grid0.N, win0_2.index t = ![q0.val, 0, 0])

/-- What point `t` writes back is block `t` of `lanes` of the argument arrays as the region finds them. -/
theorem flushed_eq (c : Dev nD) (t : Fin cfg0.N) :
    (dats m 0 c).flushed 2 t = ((cfg0.win 2).blk t).view.read (Elt Ideal) (lanes (V m c main_arg0) (V m c main_arg1)) := by
  show (cfg0.win 2).cut (grid0.coords t) ((dats m 0 c).after 2 t) = _
  rw [after0_2]
  unfold out0_2
  rw [View.canon_unit_zero hz]
  simp only [View.ld_unit_zero (S := S1x2048x512) hz, View.ld_unit_zero (S := S1x512x512) hz]
  obtain ⟨e0, e1, e2, e3, e4, e5, e6, e7, e8⟩ := idx_facts t
  funext y
  show k0_pay1 (F := Ideal) (iblk m c 0 t) (iblk m c 1 t) y
    = lanes (V m c main_arg0) (V m c main_arg1) (((cfg0.win 2).blk t).view.emb y)
  have hy : (y 0).val < 1 := (y 0).isLt
  have hb0 : ∀ (r : Fin 2048) (k : Fin 512), iblk m c 0 t (ix3 (0 : Fin 1) r k)
      = V m c main_arg0 (ix3 (((cfg0.win 2).blk t).view.emb y 0) r k) := by
    intro r k
    show V m c main_arg0 (((cfg0.win 0).blk t).view.emb (ix3 (0 : Fin 1) r k)) = _
    refine congrArg (V m c main_arg0) (funext fun a => Fin.ext ?_)
    match a with
    | ⟨0, _⟩ => show win0_0.index t (0 : Fin 3) * 1 + 1 * 0 = win0_2.index t (0 : Fin 3) * 1 + 1 * (y 0).val; omega
    | ⟨1, _⟩ => show win0_0.index t (1 : Fin 3) * 2048 + 1 * r.val = r.val; omega
    | ⟨2, _⟩ => show win0_0.index t (2 : Fin 3) * 512 + 1 * k.val = k.val; omega
  have hb1 : ∀ (r : Fin 512) (k : Fin 512), iblk m c 1 t (ix3 (0 : Fin 1) r k)
      = V m c main_arg1 (ix3 (((cfg0.win 2).blk t).view.emb y 0) r k) := by
    intro r k
    show V m c main_arg1 (((cfg0.win 1).blk t).view.emb (ix3 (0 : Fin 1) r k)) = _
    refine congrArg (V m c main_arg1) (funext fun a => Fin.ext ?_)
    match a with
    | ⟨0, _⟩ => show win0_1.index t (0 : Fin 3) * 1 + 1 * 0 = win0_2.index t (0 : Fin 3) * 1 + 1 * (y 0).val; omega
    | ⟨1, _⟩ => show win0_1.index t (1 : Fin 3) * 512 + 1 * r.val = r.val; omega
    | ⟨2, _⟩ => show win0_1.index t (2 : Fin 3) * 512 + 1 * k.val = k.val; omega
  refine (Ker.pay_apply (iblk m c 0 t) (iblk m c 1 t) y).trans ?_
  exact congrArg₂ dist (funext fun r => funext fun k => hb0 r k) (funext fun r => funext fun k => hb1 r k)

/-- An index of the output array is in point `t`'s block iff each coordinate is in the block's range on its axis. -/
theorem mem_blk (t : Fin cfg0.N) (i : S64x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0).slice (win0_2.rect t)).set ↔ _
  rw [View.set_slice_whole, Rect.mem_set_unit]
  exact Iff.rfl

/-- The 64 blocks cover the output array: row `b` lies in the block of the point whose batch entry is `b`. -/
theorem cover (i : S64x1x128.Idx) : ∃ t : Fin cfg0.N, (cfg0.win 2).flush t = true ∧ i ∈ ((cfg0.win 2).blk t).view.set := by
  have hi0 : (i 0).val < 64 := (i 0).isLt
  have hi1 : (i 1).val < 1 := (i 1).isLt
  have hi2 : (i 2).val < 128 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- The output array after the region is `lanes` of the argument arrays. -/
theorem final (c : Dev nD) : (dats m 0 c).arrAt 2 cfg0.N
    = lanes (m ((c : Thread nD τ).loc main_arg0)) (m ((c : Thread nD τ).loc main_arg1)) :=
  (dats m 0 c).arrAt_eq_of_cover 2 (lanes (V m c main_arg0) (V m c main_arg1)) (fun t _ => flushed_eq m c t) cover

/-- The host lines after the region. -/
theorem tail_eq (c : Dev nD) :
    Pipeline.afterTail₀ cfgs (dats m) 0 (V0 m) [hostOps1] c main_v2
      = result (m ((c : Thread nD τ).loc main_arg0)) (m ((c : Thread nD τ).loc main_arg1)) := by
  unfold Pipeline.afterTail₀
  show StableHlo.after hostOps1 _ (Proc.devRef .tc main_v2) = _
  after_results
  funext i
  obtain ⟨b, rfl⟩ : ∃ b : Fin 64, i = ix1 b := ⟨i 0, eq_ix1 i⟩
  show shapeCast S64 (extractStridedSlice S64x1x1 ![0, 0, 0]
      (Pipeline.withArrays (cfgs 0).spec c (V0 m c) (fun w => (dats m 0 c).arrAt w (cfgs 0).N) (Proc.devRef .tc main_v0))
      slices_S64x1x128_S64x1x1_0_0_0) shapeCasts_S64x1x1_S64 (ix1 b) = _
  refine (shapeCast_apply _ shapeCasts_S64x1x1_S64 (ix1 b) (ix3 b (0 : Fin 1) (0 : Fin 1)) ?_).trans ?_
  · rw [Shape.rowMajor_val_three, Shape.rowMajor_val_one]
    show (b.val * 1 + 0) * 1 + 0 = b.val
    omega
  refine (extractStridedSlice_apply _ _ slices_S64x1x128_S64x1x1_0_0_0 (ix3 b (0 : Fin 1) (0 : Fin 1))
    (ix3 b (0 : Fin 1) (0 : Fin 128)) (fun a => ?_)).trans ?_
  · match a with
    | ⟨0, _⟩ => exact (Nat.zero_add _).symm
    | ⟨1, _⟩ => exact (Nat.zero_add _).symm
    | ⟨2, _⟩ => exact (Nat.zero_add _).symm
  have hw := Pipeline.withArrays_arr spec0 launch0.win.arr_inj c (V0 m c) (fun w => (dats m 0 c).arrAt w (cfgs 0).N) 2
  exact (congrFun hw _).trans ((congrFun (final m c) _).trans rfl)

/-- The kernel's run at the extended reals: every weakly fair execution ends with the result at `result` of the
    argument arrays and the arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Chamfer.KerRun

end
-- ==== Proof.lean ====
/-
  The five claims of this certificate, assembled.

  Both programs compute, for each of the 64 batch entries, the same number `dist A B` of the entry's two matrices
  (Proof/Spec.lean): with `pair v l = (|A v|² − 2 · (A v · B l)) + |B l|²`, the mean over the rows `v` of the least
  `pair v l` plus the mean over the columns `l` of the least `pair v l`. The two sides group the pairwise term the same
  way and use the same words for 2, 2048, 512 and +∞, so no law of the extended reals beyond reading each sum and each
  minimum at an entry is needed, and the precondition is never opened.

  * The kernel's frames, at the word level and at the extended reals, are the generated frame runs.
  * The reference's frame is its generated run with the result dropped.
  * The idealization rewrote no operation, so there is nothing to preserve.
  * `algebraic`: the kernel's run ends with its result at `result` of its arguments (Proof/KernelRun.lean, over the
    body's value in Proof/KernelPay.lean); the reference's run ends with its result at its last stage, which is `result`
    of its arguments (Proof/RefSide.lean); the arguments agree.
-/
import proofs.«107907_j58308476010760_1_alg».proof.Defs
import proofs.«107907_j58308476010760_1_alg».proof.Proof.Gen.Kernel
import proofs.«107907_j58308476010760_1_alg».proof.Proof.Gen.Kernel.Skeleton
import proofs.«107907_j58308476010760_1_alg».proof.Proof.Gen.Kernel.Launch
import proofs.«107907_j58308476010760_1_alg».proof.Proof.Gen.Kernel.Points
import proofs.«107907_j58308476010760_1_alg».proof.Proof.Gen.Kernel.Frame
import proofs.«107907_j58308476010760_1_alg».proof.Proof.Gen.KernelIdeal
import proofs.«107907_j58308476010760_1_alg».proof.Proof.Gen.KernelIdeal.Skeleton
import proofs.«107907_j58308476010760_1_alg».proof.Proof.Gen.KernelIdeal.Launch
import proofs.«107907_j58308476010760_1_alg».proof.Proof.Gen.KernelIdeal.Points
import proofs.«107907_j58308476010760_1_alg».proof.Proof.Gen.KernelIdeal.Frame
import proofs.«107907_j58308476010760_1_alg».proof.Proof.Gen.ReferenceIdeal
import proofs.«107907_j58308476010760_1_alg».proof.Proof.Gen.ReferenceIdeal.Run
import proofs.«107907_j58308476010760_1_alg».proof.Proof.Gen.ReferenceIdeal.Read
import proofs.«107907_j58308476010760_1_alg».proof.Proof.Gen.Pre_finite_inputs
import proofs.«107907_j58308476010760_1_alg».proof.Proof.RefSide
import proofs.«107907_j58308476010760_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their results at `result` of arguments that agree. -/
theorem algebraic : Cert.algebraic_KernelIdeal_ReferenceIdeal := by
  intro m ρ m' ρ' _ hagree
  refine ⟨fun c => Cert.Chamfer.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Chamfer.KerRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.Chamfer.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
